-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S16x1024 : Shape := ⟨2, ![16, 1024]⟩
abbrev S16 : Shape := ⟨1, ![16]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S65536x1024 .f32) (main_arg1 : FVec F S16x1024 .f32) (main_arg2 : FVec F S16 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S65536x1024 : Shape := ⟨2, ![65536, 1024]⟩
abbrev S16x1024 : Shape := ⟨2, ![16, 1024]⟩
abbrev S16 : Shape := ⟨1, ![16]⟩
abbrev S1024x16 : Shape := ⟨2, ![1024, 16]⟩
abbrev S1x16 : Shape := ⟨2, ![1, 16]⟩
abbrev S65536x16 : Shape := ⟨2, ![65536, 16]⟩
abbrev S2048x512 : Shape := ⟨2, ![2048, 512]⟩
abbrev S2048x16 : Shape := ⟨2, ![2048, 16]⟩
abbrev S512x16 : Shape := ⟨2, ![512, 16]⟩

abbrev nBuf : Space → Nat
  | .hbm => 6
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S16x1024, .f32⟩
  | .hbm, ⟨2, _⟩ => ⟨S16, .f32⟩
  | .hbm, ⟨3, _⟩ => ⟨S1024x16, .f32⟩
  | .hbm, ⟨4, _⟩ => ⟨S1x16, .f32⟩
  | .hbm, ⟨5, _⟩ => ⟨S65536x16, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1024x16, .f32⟩
  | .local _ .vmem, ⟨5, _⟩ => ⟨S1x16, .f32⟩
  | .local _ .vmem, ⟨6, _⟩ => ⟨S2048x16, .f32⟩
  | .local _ .vmem, ⟨7, _⟩ => ⟨S2048x16, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16x1024_S1024x16_1_0 : S16x1024.Transposes [1, 0] S1024x16
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S2048x512_S2048x512_0_0 : ∀ a, (![0, 0] : Fin 2 → Nat) a + S2048x512.size a ≤ S2048x512.size a
  h_S2048x512 : 0 < S2048x512.numel
  inb_S1024x16_S512x16_0_0 : ∀ a, (![0, 0] : Fin 2 → Nat) a + S512x16.size a ≤ S1024x16.size a
  h_S512x16 : 0 < S512x16.numel
  shapeCasts_S512x16_S512x16 : S512x16.ShapeCasts S512x16
  broadcasts_S1x16_S2048x16 : S1x16.Broadcasts S2048x16
  inb_S1024x16_S512x16_512_0 : ∀ a, (![512, 0] : Fin 2 → Nat) a + S512x16.size a ≤ S1024x16.size a
  inb_S2048x16_S2048x16_0_0 : ∀ a, (![0, 0] : Fin 2 → Nat) a + S2048x16.size a ≤ S2048x16.size a
  h_S2048x16 : 0 < S2048x16.numel
  dot_S2048x512_S512x16_S2048x16_1_0_0_1_n_n_wf : DotDims.WF S2048x512 S512x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x1024.size a
  hwx0_0 : ∀ i : grid0.Coords, EltTy.bits .f32 = 32 ∨ (Rect.block (s := S65536x1024) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x1024.size a
  hwx0_1 : ∀ i : grid0.Coords, EltTy.bits .f32 = 32 ∨ (Rect.block (s := S65536x1024) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .f32 = 32 ∨ (Rect.block (s := S1024x16) S1024x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x16.size a ≤ S65536x16.size a
  hwx0_4 : ∀ i : grid0.Coords, EltTy.bits .f32 = 32 ∨ (Rect.block (s := S65536x16) S2048x16.size (cc0_transform_4 i) (hinb0_4 i)).WholeWords (EltTy.packing .f32)

variable [Facts₀]

def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S16x1024 : Shape := ⟨2, ![16, 1024]⟩
abbrev S16 : Shape := ⟨1, ![16]⟩
abbrev S1024x16 : Shape := ⟨2, ![1024, 16]⟩
abbrev S65536x16 : Shape := ⟨2, ![65536, 16]⟩
abbrev S1x16 : Shape := ⟨2, ![1, 16]⟩

abbrev nBuf : Space → Nat
  | .hbm => 8
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x1024, .f32⟩
  | .hbm, ⟨2, _⟩ => ⟨S16, .f32⟩
  | .hbm, ⟨3, _⟩ => ⟨S1024x16, .f32⟩
  | .hbm, ⟨4, _⟩ => ⟨S65536x16, .f32⟩
  | .hbm, ⟨5, _⟩ => ⟨S1x16, .f32⟩
  | .hbm, ⟨6, _⟩ => ⟨S65536x16, .f32⟩
  | .hbm, ⟨7, _⟩ => ⟨S65536x16, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S16x1024_S1024x16_1_0 : S16x1024.Transposes [1, 0] S1024x16
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  dot_S65536x1024_S1024x16_S65536x16_1_0_0_1_n_n_wf : DotDims.WF S65536x1024 S1024x16 S65536x16 [1] [0] [0] [1] [] []

variable [Facts₀]

def dot_S65536x1024_S1024x16_S65536x16_1_0_0_1_n_n : DotDims S65536x1024 S1024x16 S65536x16 where
  lhsContracting := [1]
  rhsContracting := [0]
  lhsNonContracting := [0]
  rhsNonContracting := [1]
  lhsBatch := []
  rhsBatch := []
  wf := dot_S65536x1024_S1024x16_S65536x16_1_0_0_1_n_n_wf

class Facts : Prop extends Facts₀ where

variable [Facts]
-- ==== Proof.LibSharedFrame.lean ====
/-
  A pipeline launch for a kernel whose INPUT windows may read one array through several windows.

  The library's frame run for the plainest kernels asks that the windows' arrays be pairwise distinct buffers. When one
  array is handed to the kernel through several input windows (each streaming its own blocks of it), the array's one
  full-share points-to has to be dealt among those windows; how is for the caller to say (`hsplit`). Everything else is
  as in the distinct case: the kernel has no semaphore of its own, owes nothing, keeps nothing between grid points but
  the scoped buffers that are no staging buffer (`scopedRest`), and every unscoped buffer that is no window's array
  bypasses the region and is read back unchanged. The conclusion is the library's `FramePost`: every window's array at
  `Dat.arrAt w N`, every other unscoped buffer at its region-entry contents `V`.
-/
import Idealize.ShloMosaic.Lib.Pipeline.Frame

noncomputable section

namespace Cert.SharedFrame

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "𝔻" => Pipeline.defs (fun q => Cfg.toPCfg (Val := Val) (cfgs q)) defs₀

/-- The frame run of a one-region program whose input windows may share arrays. `hsplit` deals the buffers behind the
    windows' arrays, each whole at the region-entry contents, into the proof data's `arrays` at entry; `hΦ` says the
    body's invariant is the scoped rest alone. -/
theorem θ_run_frame_shared
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run 𝔻 (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩; iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.SharedFrame

end
-- ==== Proof.KernelFrame.lean ====
/-
  The frame of `Kernel`: @main is two host operations (the weight's transpose, the bias' reshape to a row), then ONE
  kernel region on a grid of 32 points. The kernel reads the input matrix through TWO windows of the same array — at
  point `t` window 0 streams rows [2048 t, 2048 (t+1)) of the column half [0, 512) and window 1 the same rows of the column
  half [512, 1024) —, the transposed weight and the bias row through two whole-array windows fetched once, and writes
  rows [2048 t, 2048 (t+1)) of the result through window 4.

  The two input windows on one array are why the launch is stated here: the array's points-to is dealt to them in two
  halves of the full share (left to window 0, right to window 1), which is sound because both only read it. At every
  point the body finds each input window's buffer at that window's block of its array, and leaves the output's buffer
  at ONE store covering it: the body's arithmetic (the skeleton's payload) of the four input blocks. Nothing else is
  kept between points. The frame claim follows: the run terminates, and the three argument arrays end as launched —
  the input matrix because an input window's array is never written, the weight and the bias because no window stages them.
-/
import proofs.«169842_g31404800869166_cont_8to1_b_1658_4_alg».proof.Proof.Gen.Kernel.Launch
import proofs.«169842_g31404800869166_cont_8to1_b_1658_4_alg».proof.Proof.Gen.Kernel.Skeleton
import proofs.«169842_g31404800869166_cont_8to1_b_1658_4_alg».proof.Proof.Gen.Kernel.Points
import proofs.«169842_g31404800869166_cont_8to1_b_1658_4_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore's buffers as the region finds them: the launch contents after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main reduces to the region holding the unscoped buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes an argument: the transpose writes `main_v0`, the reshape `main_v1`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rBias : Rect S1x16 := Rect.unit (s := S1x16) ![0, 0] S1x16.size Facts₀.inb_S1x16_S1x16_0_0
abbrev rX : Rect S2048x512 := Rect.unit (s := S2048x512) ![0, 0] S2048x512.size Facts₀.inb_S2048x512_S2048x512_0_0
abbrev rWlo : Rect S1024x16 := Rect.unit (s := S1024x16) ![0, 0] S512x16.size Facts₀.inb_S1024x16_S512x16_0_0
abbrev rWhi : Rect S1024x16 := Rect.unit (s := S1024x16) ![512, 0] S512x16.size Facts₀.inb_S1024x16_S512x16_512_0
abbrev rOut : Rect S2048x16 := Rect.unit (s := S2048x16) ![0, 0] S2048x16.size Facts₀.inb_S2048x16_S2048x16_0_0

/-! ## What the body leaves in the output window's buffer -/

/-- The output buffer after the body, from the four input blocks: its one store, the body's arithmetic of the bias row,
    the two column halves of the rows and the two row halves of the transposed weight. -/
def outBlk (x0 x1 : Vec F S2048x512 .f32) (wt : Vec F S1024x16 .f32) (b : Vec F S1x16 .f32) : Vec F S2048x16 .f32 :=
  View.canon [⟨rOut, k0_pay1 (View.ld b rBias) (View.ld x0 rX) (View.ld wt rWlo) (View.ld x1 rX) (View.ld wt rWhi)⟩]

/-- The one store covers the buffer. -/
theorem cover_out (p0 : Vec F S2048x16 .f32) (y : S2048x16.Idx) :
    ∃ pc ∈ ([⟨rOut, p0⟩] : List (View.Piece (Elt F) S2048x16 .f32)), y ∈ pc.1.set :=
  View.cover_of_tiled [⟨rOut, p0⟩] S2048x16.size (by rfl) y

/-! ## The body's triple -/

set_option maxHeartbeats 1000000 in
/-- The kernel body on whole staging memrefs, the inputs' at read contents and the output's at anything, runs to the
    continuation holding the inputs' as they were and the output's at `outBlk` of the inputs'. -/
theorem sound_kernel (c : Dev nD) (E : Set ℕ) (i : grid0.Coords)
    (arg1 : Memref sig .tc .vmem S2048x512 .f32) (harg1 : arg1.IsWhole) (arg2 : Memref sig .tc .vmem S2048x512 .f32) (harg2 : arg2.IsWhole)
    (arg3 : Memref sig .tc .vmem S1024x16 .f32) (harg3 : arg3.IsWhole) (arg4 : Memref sig .tc .vmem S1x16 .f32) (harg4 : arg4.IsWhole)
    (arg5 : Memref sig .tc .vmem S2048x16 .f32) (harg5 : arg5.IsWhole)
    (x0 x1 : Vec F S2048x512 .f32) (wt : Vec F S1024x16 .f32) (b : Vec F S1x16 .f32) (K : PUnit → sProp 𝕄) :
    iprop(owns (c : Thread nD τ) arg1 fullShare x0 ∗ owns (c : Thread nD τ) arg2 fullShare x1 ∗ owns (c : Thread nD τ) arg3 fullShare wt
        ∗ owns (c : Thread nD τ) arg4 fullShare b ∗ (∃ d, owns (c : Thread nD τ) arg5 fullShare d)
        ∗ (iprop(owns (c : Thread nD τ) arg1 fullShare x0 ∗ owns (c : Thread nD τ) arg2 fullShare x1 ∗ owns (c : Thread nD τ) arg3 fullShare wt
            ∗ owns (c : Thread nD τ) arg4 fullShare b ∗ owns (c : Thread nD τ) arg5 fullShare (outBlk x0 x1 wt b)) -∗ K ⟨⟩))
      ⊢ wp frame (wpE (defs₀ (F := F)) Variants.none c none) E (cc0__matmul_body i arg1 harg1 arg2 harg2 arg3 harg3 arg4 harg4 arg5 harg5) K := by
  simp only [cc0__matmul_body_eq_skeleton]; unfold cc0__matmul_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`: the arrays as the region finds them; after the body at point `t` each input's buffer at
    its block and the output's at `outBlk` of the input blocks; between points only the scoped buffers that are no
    staging buffer; nothing owed; the input matrix held in two halves of the full share by its two windows, every other
    array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.scopedRest (Ix := Unit) (Name := ℕ) (U := UR sig nD τ) (Lvl := ℕ) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlk (iblk m c 0 t) (iblk m c 1 t) (iblk m c 2 t) (iblk m c 3 t) := by dsimp only [dats]

/-- Each input's current staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The shared array dealt to its two windows -/

/-- The buffers behind the windows' arrays are four: the input matrix (windows 0 and 1), the transposed weight, the
    bias row and the result. -/
theorem arrRefs_eq : (Finset.univ.image (Pipeline.arrRef spec0)) = [main_arg0, main_v0, main_v1, main_v2].toFinset := by decide

/-- So the launch hands the pipeline four points-tos, each at the full share. -/
theorem arrBufs_eq (c : Dev nD) :
    (Pipeline.arrBufs spec0 c (V m c) : sProp 𝕄)
      = iprop((((c.tc : Thread nD τ).loc main_arg0) ↦{fullShare} V m c main_arg0) ∗ (((c.tc : Thread nD τ).loc main_v0) ↦{fullShare} V m c main_v0)
          ∗ (((c.tc : Thread nD τ).loc main_v1) ↦{fullShare} V m c main_v1) ∗ (((c.tc : Thread nD τ).loc main_v2) ↦{fullShare} V m c main_v2)) :=
  bigSep_eq_bigSepL_of_eq [main_arg0, main_v0, main_v1, main_v2] arrRefs_eq (by decide) _

/-- The shares at which the proof data hold the arrays. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The four buffers, each whole at the full share at the region-entry contents, make the proof data's arrays at entry:
    the input matrix's points-to splits into its left and right half shares, one for each of its two windows. -/
theorem hsplit (c : Dev nD) :
    (Pipeline.arrBufs spec0 c (V m c) : sProp 𝕄) ⊢ (dats m 0 c).arrays ((dats m 0 c).arrAt · 0) := by
  have harrays : (dats m 0 c).arrays ((dats m 0 c).arrAt · 0)
      = bigSep Finset.univ fun w : Fin 5 => (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [harrays, bigSep_W0, share_0, share_1, share_2, share_3, share_4]
  rw [arrBufs_eq]
  iintro ⟨H0, H2, H3, H4⟩
  ihave H0 := (pointsTo_share (PosShare.mem_left_op_right fullShare)).1 $$ H0
  icases H0 with ⟨H0l, H0r⟩
  isplitl [H0l]; · iexact H0l
  isplitl [H0r]; · iexact H0r
  isplitl [H2]; · iexact H2
  isplitl [H3]; · iexact H3
  iexact H4

/-! ## The run and the frame -/

set_option backward.isDefEq.respectTransparency.types false in
/-- From any memory with zero counters every weakly fair execution of @main terminates, every window's array at what the
    write-backs leave and every other unscoped buffer as the region found it. -/
theorem run_main : θ_run defs (onTc (τ := τ) (main (F := F))) (s₀ m ρ) (Pipeline.FramePost cfgs (dats m) 0 (V m)) :=
  Cert.SharedFrame.θ_run_frame_shared cfgs (dats m) (0 : Fin 1) defs₀ Variants.none cellOf_inj winFacts₀0 block_pos0 arr_whole0 stage_whole0
    m ρ main (fun c => (body_obligation m c).loose) (fun _ _ => rfl) (V m) (hmain m Variants.none) (hsplit m) (fun _ _ => rfl)

/-- info: 'Cert.Kernel.Frame.run_main' depends on axioms: [propext, Classical.choice, Quot.sound] -/
#guard_msgs in #print axioms run_main

/-- The frame claim at any `F`: the input matrix through its window 0 (an input's array is never written), the weight
    and the bias among the buffers that bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c)⟩) (run_main m ρ)

end Cert.Kernel.Frame

end
-- ==== Proof.KernelIdealFrame.lean ====
/-
  The frame of `KernelIdeal`: @main is two host operations (the weight's transpose, the bias' reshape to a row), then ONE
  kernel region on a grid of 32 points. The kernel reads the input matrix through TWO windows of the same array — at
  point `t` window 0 streams rows [2048 t, 2048 (t+1)) of the column half [0, 512) and window 1 the same rows of the column
  half [512, 1024) —, the transposed weight and the bias row through two whole-array windows fetched once, and writes
  rows [2048 t, 2048 (t+1)) of the result through window 4.

  The two input windows on one array are why the launch is stated here: the array's points-to is dealt to them in two
  halves of the full share (left to window 0, right to window 1), which is sound because both only read it. At every
  point the body finds each input window's buffer at that window's block of its array, and leaves the output's buffer
  at ONE store covering it: the body's arithmetic (the skeleton's payload) of the four input blocks. Nothing else is
  kept between points. The frame claim follows: the run terminates, and the three argument arrays end as launched —
  the input matrix because an input window's array is never written, the weight and the bias because no window stages them.
-/
import proofs.«169842_g31404800869166_cont_8to1_b_1658_4_alg».proof.Proof.Gen.KernelIdeal.Launch
import proofs.«169842_g31404800869166_cont_8to1_b_1658_4_alg».proof.Proof.Gen.KernelIdeal.Skeleton
import proofs.«169842_g31404800869166_cont_8to1_b_1658_4_alg».proof.Proof.Gen.KernelIdeal.Points
import proofs.«169842_g31404800869166_cont_8to1_b_1658_4_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore's buffers as the region finds them: the launch contents after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main reduces to the region holding the unscoped buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes an argument: the transpose writes `main_v0`, the reshape `main_v1`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rBias : Rect S1x16 := Rect.unit (s := S1x16) ![0, 0] S1x16.size Facts₀.inb_S1x16_S1x16_0_0
abbrev rX : Rect S2048x512 := Rect.unit (s := S2048x512) ![0, 0] S2048x512.size Facts₀.inb_S2048x512_S2048x512_0_0
abbrev rWlo : Rect S1024x16 := Rect.unit (s := S1024x16) ![0, 0] S512x16.size Facts₀.inb_S1024x16_S512x16_0_0
abbrev rWhi : Rect S1024x16 := Rect.unit (s := S1024x16) ![512, 0] S512x16.size Facts₀.inb_S1024x16_S512x16_512_0
abbrev rOut : Rect S2048x16 := Rect.unit (s := S2048x16) ![0, 0] S2048x16.size Facts₀.inb_S2048x16_S2048x16_0_0

/-! ## What the body leaves in the output window's buffer -/

/-- The output buffer after the body, from the four input blocks: its one store, the body's arithmetic of the bias row,
    the two column halves of the rows and the two row halves of the transposed weight. -/
def outBlk (x0 x1 : Vec F S2048x512 .f32) (wt : Vec F S1024x16 .f32) (b : Vec F S1x16 .f32) : Vec F S2048x16 .f32 :=
  View.canon [⟨rOut, k0_pay1 (View.ld b rBias) (View.ld x0 rX) (View.ld wt rWlo) (View.ld x1 rX) (View.ld wt rWhi)⟩]

/-- The one store covers the buffer. -/
theorem cover_out (p0 : Vec F S2048x16 .f32) (y : S2048x16.Idx) :
    ∃ pc ∈ ([⟨rOut, p0⟩] : List (View.Piece (Elt F) S2048x16 .f32)), y ∈ pc.1.set :=
  View.cover_of_tiled [⟨rOut, p0⟩] S2048x16.size (by rfl) y

/-! ## The body's triple -/

set_option maxHeartbeats 1000000 in
/-- The kernel body on whole staging memrefs, the inputs' at read contents and the output's at anything, runs to the
    continuation holding the inputs' as they were and the output's at `outBlk` of the inputs'. -/
theorem sound_kernel (c : Dev nD) (E : Set ℕ) (i : grid0.Coords)
    (arg1 : Memref sig .tc .vmem S2048x512 .f32) (harg1 : arg1.IsWhole) (arg2 : Memref sig .tc .vmem S2048x512 .f32) (harg2 : arg2.IsWhole)
    (arg3 : Memref sig .tc .vmem S1024x16 .f32) (harg3 : arg3.IsWhole) (arg4 : Memref sig .tc .vmem S1x16 .f32) (harg4 : arg4.IsWhole)
    (arg5 : Memref sig .tc .vmem S2048x16 .f32) (harg5 : arg5.IsWhole)
    (x0 x1 : Vec F S2048x512 .f32) (wt : Vec F S1024x16 .f32) (b : Vec F S1x16 .f32) (K : PUnit → sProp 𝕄) :
    iprop(owns (c : Thread nD τ) arg1 fullShare x0 ∗ owns (c : Thread nD τ) arg2 fullShare x1 ∗ owns (c : Thread nD τ) arg3 fullShare wt
        ∗ owns (c : Thread nD τ) arg4 fullShare b ∗ (∃ d, owns (c : Thread nD τ) arg5 fullShare d)
        ∗ (iprop(owns (c : Thread nD τ) arg1 fullShare x0 ∗ owns (c : Thread nD τ) arg2 fullShare x1 ∗ owns (c : Thread nD τ) arg3 fullShare wt
            ∗ owns (c : Thread nD τ) arg4 fullShare b ∗ owns (c : Thread nD τ) arg5 fullShare (outBlk x0 x1 wt b)) -∗ K ⟨⟩))
      ⊢ wp frame (wpE (defs₀ (F := F)) Variants.none c none) E (cc0__matmul_body i arg1 harg1 arg2 harg2 arg3 harg3 arg4 harg4 arg5 harg5) K := by
  simp only [cc0__matmul_body_eq_skeleton]; unfold cc0__matmul_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`: the arrays as the region finds them; after the body at point `t` each input's buffer at
    its block and the output's at `outBlk` of the input blocks; between points only the scoped buffers that are no
    staging buffer; nothing owed; the input matrix held in two halves of the full share by its two windows, every other
    array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.scopedRest (Ix := Unit) (Name := ℕ) (U := UR sig nD τ) (Lvl := ℕ) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlk (iblk m c 0 t) (iblk m c 1 t) (iblk m c 2 t) (iblk m c 3 t) := by dsimp only [dats]

/-- Each input's current staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The shared array dealt to its two windows -/

/-- The buffers behind the windows' arrays are four: the input matrix (windows 0 and 1), the transposed weight, the
    bias row and the result. -/
theorem arrRefs_eq : (Finset.univ.image (Pipeline.arrRef spec0)) = [main_arg0, main_v0, main_v1, main_v2].toFinset := by decide

/-- So the launch hands the pipeline four points-tos, each at the full share. -/
theorem arrBufs_eq (c : Dev nD) :
    (Pipeline.arrBufs spec0 c (V m c) : sProp 𝕄)
      = iprop((((c.tc : Thread nD τ).loc main_arg0) ↦{fullShare} V m c main_arg0) ∗ (((c.tc : Thread nD τ).loc main_v0) ↦{fullShare} V m c main_v0)
          ∗ (((c.tc : Thread nD τ).loc main_v1) ↦{fullShare} V m c main_v1) ∗ (((c.tc : Thread nD τ).loc main_v2) ↦{fullShare} V m c main_v2)) :=
  bigSep_eq_bigSepL_of_eq [main_arg0, main_v0, main_v1, main_v2] arrRefs_eq (by decide) _

/-- The shares at which the proof data hold the arrays. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The four buffers, each whole at the full share at the region-entry contents, make the proof data's arrays at entry:
    the input matrix's points-to splits into its left and right half shares, one for each of its two windows. -/
theorem hsplit (c : Dev nD) :
    (Pipeline.arrBufs spec0 c (V m c) : sProp 𝕄) ⊢ (dats m 0 c).arrays ((dats m 0 c).arrAt · 0) := by
  have harrays : (dats m 0 c).arrays ((dats m 0 c).arrAt · 0)
      = bigSep Finset.univ fun w : Fin 5 => (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [harrays, bigSep_W0, share_0, share_1, share_2, share_3, share_4]
  rw [arrBufs_eq]
  iintro ⟨H0, H2, H3, H4⟩
  ihave H0 := (pointsTo_share (PosShare.mem_left_op_right fullShare)).1 $$ H0
  icases H0 with ⟨H0l, H0r⟩
  isplitl [H0l]; · iexact H0l
  isplitl [H0r]; · iexact H0r
  isplitl [H2]; · iexact H2
  isplitl [H3]; · iexact H3
  iexact H4

/-! ## The run and the frame -/

set_option backward.isDefEq.respectTransparency.types false in
/-- From any memory with zero counters every weakly fair execution of @main terminates, every window's array at what the
    write-backs leave and every other unscoped buffer as the region found it. -/
theorem run_main : θ_run defs (onTc (τ := τ) (main (F := F))) (s₀ m ρ) (Pipeline.FramePost cfgs (dats m) 0 (V m)) :=
  Cert.SharedFrame.θ_run_frame_shared cfgs (dats m) (0 : Fin 1) defs₀ Variants.none cellOf_inj winFacts₀0 block_pos0 arr_whole0 stage_whole0
    m ρ main (fun c => (body_obligation m c).loose) (fun _ _ => rfl) (V m) (hmain m Variants.none) (hsplit m) (fun _ _ => rfl)

/-- info: 'Cert.KernelIdeal.Frame.run_main' depends on axioms: [propext, Classical.choice, Quot.sound] -/
#guard_msgs in #print axioms run_main

/-- The frame claim at any `F`: the input matrix through its window 0 (an input's array is never written), the weight
    and the bias among the buffers that bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c)⟩) (run_main m ρ)

end Cert.KernelIdeal.Frame

end
-- ==== Proof.Spec.lean ====
/-
  The result both programs compute, as one function of the three argument arrays, and the two laws that join the
  kernel's arrangement of an entry to the reference's.

  Entry (i, j) of the result is the dot product of row `i` of the input (1024 columns) with row `j` of the weight, plus
  `bias j`. The reference computes it as written. The kernel adds the bias FIRST and forms the dot product as two partial
  sums, over the columns below 512 and over the columns from 512 on. A sum over 1024 positions is the sum over its two
  halves, and addition of extended reals is commutative and associative (no finiteness is needed: the two sides are
  rearrangements of one sum, +∞ and −∞ included), so the two arrangements agree.
-/
import Idealize.ShloMosaic.Lib.ValueIdx
import Mathlib.Algebra.BigOperators.Fin

noncomputable section

namespace Cert.Spec

open Idealize.ShloMosaic Idealize.ShloMosaic.ValueIdx

abbrev SX : Shape := ⟨2, ![65536, 1024]⟩
abbrev SW : Shape := ⟨2, ![16, 1024]⟩
abbrev SB : Shape := ⟨1, ![16]⟩
abbrev SO : Shape := ⟨2, ![65536, 16]⟩

/-- Entry (i, j) of the result: the dot product of row `i` of the input with row `j` of the weight, plus `bias j`. -/
def dotRow (X : SX.Idx → EReal) (W : SW.Idx → EReal) (B : SB.Idx → EReal) (i : Fin 65536) (j : Fin 16) : EReal :=
  (∑ k : Fin 1024, X (ix2 i k) * W (ix2 j k)) + B (ix1 j)

/-- The whole result array. -/
def result (X : SX.Idx → EReal) (W : SW.Idx → EReal) (B : SB.Idx → EReal) : SO.Idx → EReal :=
  fun i => dotRow X W B (i 0) (i 1)

/-- Column `k` of the left half, and of the right half, as a column of the whole. -/
abbrev lo (k : Fin 512) : Fin 1024 := ⟨k.val, by omega⟩
abbrev hi (k : Fin 512) : Fin 1024 := ⟨512 + k.val, by omega⟩

/-- A sum over 1024 columns is the sum over the left half plus the sum over the right half. -/
theorem sum_halves {M : Type} [AddCommMonoid M] (f : Fin 1024 → M) :
    ∑ k : Fin 1024, f k = ∑ k : Fin 512, f (lo k) + ∑ k : Fin 512, f (hi k) :=
  Fin.sum_univ_add (a := 512) (b := 512) f

/-- The kernel's grouping of an entry is the reference's: (b + s₀) + s₁ = (s₀ + s₁) + b. -/
theorem regroup (b s₀ s₁ : EReal) : (b + s₀) + s₁ = (s₀ + s₁) + b := by
  rw [add_comm b s₀, add_assoc, add_comm b s₁, ← add_assoc]

/-- The entry in the kernel's arrangement: bias first, then the two half dot products. -/
theorem dotRow_eq_halves (X : SX.Idx → EReal) (W : SW.Idx → EReal) (B : SB.Idx → EReal) (i : Fin 65536) (j : Fin 16) :
    (B (ix1 j) + ∑ k : Fin 512, X (ix2 i (lo k)) * W (ix2 j (lo k))) + ∑ k : Fin 512, X (ix2 i (hi k)) * W (ix2 j (hi k))
      = dotRow X W B i j := by
  unfold dotRow
  rw [sum_halves (fun k => X (ix2 i k) * W (ix2 j k)), regroup]

end Cert.Spec

end
-- ==== Proof.KernelValue.lean ====
/-
  What the idealized kernel's result array holds, entry by entry.

  Grid point `t` writes rows [2048 t, 2048 (t+1)) of the result. At row `r` of that block and column `j` the body leaves
      (bias j + Σ_{k < 512} x[2048 t + r, k] · w[j, k]) + Σ_{k < 512} x[2048 t + r, 512 + k] · w[j, 512 + k]
  — the bias row broadcast down the block, plus the product of the block's left column half with the first 512 rows of the
  transposed weight, plus the product of its right column half with the last 512 rows; at the ideal instance a matrix
  product into a zero accumulator is the plain sum over the contracted axis. The two partial sums are the two halves of
  the one sum over k < 1024, and addition of extended reals is commutative and associative, so the entry is
      Σ_{k < 1024} x[i, k] · w[j, k] + bias j        (i = 2048 t + r),
  which is `dotRow` below. The 32 blocks tile the 65536 rows (row `i` lies in block `i / 2048`), so after the run the whole
  array is that function of the three argument arrays.
-/
import proofs.«169842_g31404800869166_cont_8to1_b_1658_4_alg».proof.Proof.KernelIdealFrame
import proofs.«169842_g31404800869166_cont_8to1_b_1658_4_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.KValue

open Cert.KernelIdeal Cert.KernelIdeal.Gen Cert.KernelIdeal.Frame
open Idealize.ShloMosaic Idealize.ShloMosaic.TcCoe Idealize.SL.Sem Idealize.ShloMosaic.StableHlo
open Idealize.ShloMosaic.Pipeline (Dat)
open Idealize.ShloMosaic.ValueIdx
open Cert.Spec (dotRow lo hi)

/-! ## The body's arithmetic at an entry -/

theorem lhs_mm_0 (i : S2048x16.Idx) (q : dot_S2048x512_S512x16_S2048x16_1_0_0_1_n_n.contr.Idx) :
    (dot_S2048x512_S512x16_S2048x16_1_0_0_1_n_n.lhsIdx i q 0).val = (i 0).val := by
  unfold DotDims.lhsIdx
  rw [dif_neg (show ¬(0 : Fin S2048x512.rank) ∈ dot_S2048x512_S512x16_S2048x16_1_0_0_1_n_n.lhsBatch by decide), dif_pos (show (0 : Fin S2048x512.rank) ∈ dot_S2048x512_S512x16_S2048x16_1_0_0_1_n_n.lhsNonContracting by decide)]
  rfl
theorem lhs_mm_1 (i : S2048x16.Idx) (q : dot_S2048x512_S512x16_S2048x16_1_0_0_1_n_n.contr.Idx) :
    (dot_S2048x512_S512x16_S2048x16_1_0_0_1_n_n.lhsIdx i q 1).val = (q ⟨0, by decide⟩).val :=
  dot_S2048x512_S512x16_S2048x16_1_0_0_1_n_n.lhsIdx_val_of_single rfl i q
theorem rhs_mm_0 (i : S2048x16.Idx) (q : dot_S2048x512_S512x16_S2048x16_1_0_0_1_n_n.contr.Idx) :
    (dot_S2048x512_S512x16_S2048x16_1_0_0_1_n_n.rhsIdx i q 0).val = (q ⟨0, by decide⟩).val :=
  dot_S2048x512_S512x16_S2048x16_1_0_0_1_n_n.rhsIdx_val_of_single rfl i q
theorem rhs_mm_1 (i : S2048x16.Idx) (q : dot_S2048x512_S512x16_S2048x16_1_0_0_1_n_n.contr.Idx) :
    (dot_S2048x512_S512x16_S2048x16_1_0_0_1_n_n.rhsIdx i q 1).val = (i 1).val := by
  unfold DotDims.rhsIdx
  rw [dif_neg (show ¬(1 : Fin S512x16.rank) ∈ dot_S2048x512_S512x16_S2048x16_1_0_0_1_n_n.rhsBatch by decide), dif_pos (show (1 : Fin S512x16.rank) ∈ dot_S2048x512_S512x16_S2048x16_1_0_0_1_n_n.rhsNonContracting by decide)]
  rfl

/-- A [2048, 512] × [512, 16] product into the zero accumulator, at entry (r, j): the sum over the 512 contracted positions. -/
theorem mm_apply (x : FVec Ideal S2048x512 .f32) (w : FVec Ideal S512x16 .f32) (r : Fin 2048) (j : Fin 16) :
    matmul dot_S2048x512_S512x16_S2048x16_1_0_0_1_n_n none x w (constant S2048x16 .f32 0x00000000#32) (ix2 r j)
      = ∑ k : Fin 512, x (ix2 r k) * w (ix2 k j) := by
  refine (Ideal.matmul_constant_zero_apply dot_S2048x512_S512x16_S2048x16_1_0_0_1_n_n none x w (ix2 r j)).trans ?_
  rw [← Equiv.sum_comp (ValueIdx.contrEquiv1 dot_S2048x512_S512x16_S2048x16_1_0_0_1_n_n 512 rfl rfl).symm]
  refine Finset.sum_congr rfl fun k _ => ?_
  have hk := ValueIdx.contrEquiv1_symm_val dot_S2048x512_S512x16_S2048x16_1_0_0_1_n_n 512 rfl rfl k
  have el : dot_S2048x512_S512x16_S2048x16_1_0_0_1_n_n.lhsIdx (ix2 r j) ((ValueIdx.contrEquiv1 dot_S2048x512_S512x16_S2048x16_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S2048x512_S512x16_S2048x16_1_0_0_1_n_n.rhsIdx (ix2 r j) ((ValueIdx.contrEquiv1 dot_S2048x512_S512x16_S2048x16_1_0_0_1_n_n 512 rfl rfl).symm k) = ix2 k j := funext fun a => Fin.ext (by
    match a with
    | ⟨0, _⟩ => exact (rhs_mm_0 _ _).trans hk
    | ⟨1, _⟩ => exact rhs_mm_1 _ _)
  rw [el, er]

/-- The bias row broadcast down the block, at entry (r, j): the row's entry j. -/
theorem bcast_apply (b : FVec Ideal S1x16 .f32) (r : Fin 2048) (j : Fin 16) :
    broadcastTo S2048x16 b Facts₀.broadcasts_S1x16_S2048x16 (ix2 r j) = b (ix2 (0 : Fin 1) j) :=
  broadcastTo_apply b _ (ix2 r j) (ix2 (0 : Fin 1) j) (fun a => match a with
    | ⟨0, _⟩ => by show (0 : Nat) = if (1 : Nat) = 1 then 0 else r.val; rw [if_pos rfl]
    | ⟨1, _⟩ => by show j.val = if (16 : Nat) = 1 then 0 else j.val; rw [if_neg (by decide)])

/-- The stored value at entry (r, j) of the block, from the five loaded values. -/
theorem pay_apply (v0 : Vec Ideal S1x16 .f32) (v2 v8 : Vec Ideal S2048x512 .f32) (v3 v9 : Vec Ideal S512x16 .f32) (r : Fin 2048) (j : Fin 16) :
    k0_pay1 v0 v2 v3 v8 v9 (ix2 r j)
      = (v0 (ix2 (0 : Fin 1) j) + ∑ k : Fin 512, v2 (ix2 r k) * v3 (ix2 k j)) + ∑ k : Fin 512, v8 (ix2 r k) * v9 (ix2 k j) := by
  unfold k0_pay1
  simp only [shapeCast_self]
  rw [addf_apply, addf_apply, mm_apply, mm_apply, bcast_apply]

variable (m : (ℓ : Loc nD τ sig) → Buf (Elt Ideal) ℓ) (ρ : Dev nD → PrngReg)

/-! ## The arrays the host operations wrote before the region -/

/-- The region finds the transposed weight in `main_v0` -/
theorem V_wt (c : Dev nD) : (V m c main_v0 : S1024x16.Idx → EReal)
    = transpose S1024x16 [1, 0] (m ((c : Thread nD τ).loc main_arg1)) Facts₀.transposes_S16x1024_S1024x16_1_0 := by
  dsimp only [V, hostOps0]; after_results

/-- and the bias as a one-row matrix in `main_v1`. -/
theorem V_bias (c : Dev nD) : (V m c main_v1 : S1x16.Idx → EReal)
    = shapeCast S1x16 (m ((c : Thread nD τ).loc main_arg2)) Facts₀.shapeCasts_S16_S1x16 := by
  dsimp only [V, hostOps0]; after_results; rfl

theorem wt_apply (c : Dev nD) (k : Fin 1024) (j : Fin 16) :
    V m c main_v0 (ix2 k j) = m ((c : Thread nD τ).loc main_arg1) (ix2 j k) := by
  rw [V_wt]
  exact transpose_apply [1, 0] _ _ (ix2 k j) (ix2 j k) (fun b => match b with | ⟨0, _⟩ => rfl | ⟨1, _⟩ => rfl)

theorem bias_apply (c : Dev nD) (j : Fin 16) :
    V m c main_v1 (ix2 (0 : Fin 1) j) = m ((c : Thread nD τ).loc main_arg2) (ix1 j) := by
  rw [V_bias]
  exact shapeCast_apply _ _ (ix2 (0 : Fin 1) j) (ix1 j) (by
    rw [Shape.rowMajor_val_one, Shape.rowMajor_val_two]; show j.val = 0 * 16 + j.val; omega)

/-! ## The windows' blocks, entry by entry -/

/-- Where each window's block sits at point `t`: the two input windows on the rows of block `t`, in column blocks 0 and 1;
    the weight and the bias whole; the output on the rows of block `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of block `t`, as a row of the whole. -/
abbrev rowOf (t : Fin cfg0.N) (r : Fin 2048) : Fin 65536 := ⟨t.val * 2048 + r.val, by have := t.isLt; have := r.isLt; have : cfg0.N = 32 := N_0; omega⟩

theorem x_lo_apply (c : Dev nD) (t : Fin cfg0.N) (r : Fin 2048) (k : Fin 512) :
    iblk m c 0 t (ix2 r k) = m ((c : Thread nD τ).loc main_arg0) (ix2 (rowOf t r) (lo k)) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 2048 + 1 * r.val = t.val * 2048 + r.val; omega
  | ⟨1, _⟩ => show win0_0.index t (1 : Fin 2) * 512 + 1 * k.val = k.val; omega

theorem x_hi_apply (c : Dev nD) (t : Fin cfg0.N) (r : Fin 2048) (k : Fin 512) :
    iblk m c 1 t (ix2 r k) = m ((c : Thread nD τ).loc main_arg0) (ix2 (rowOf t r) (hi k)) := by
  obtain ⟨-, -, e0, e1, -⟩ := idx_facts t
  show V m c main_arg0 (((cfg0.win 1).blk t).view.emb (ix2 r k)) = _
  rw [V_main_arg0]
  refine congrArg _ (funext fun a => Fin.ext ?_)
  match a with
  | ⟨0, _⟩ => show win0_1.index t (0 : Fin 2) * 2048 + 1 * r.val = t.val * 2048 + r.val; omega
  | ⟨1, _⟩ => show win0_1.index t (1 : Fin 2) * 512 + 1 * k.val = 512 + k.val; omega

theorem wt_blk_apply (c : Dev nD) (t : Fin cfg0.N) (k : Fin 1024) (j : Fin 16) :
    iblk m c 2 t (ix2 k j) = m ((c : Thread nD τ).loc main_arg1) (ix2 j k) := by
  obtain ⟨-, -, -, -, e0, e1, -⟩ := idx_facts t
  show V m c main_v0 (((cfg0.win 2).blk t).view.emb (ix2 k j)) = _
  rw [← wt_apply m c k j]
  refine congrArg _ (funext fun a => Fin.ext ?_)
  match a with
  | ⟨0, _⟩ => show win0_2.index t (0 : Fin 2) * 1024 + 1 * k.val = k.val; omega
  | ⟨1, _⟩ => show win0_2.index t (1 : Fin 2) * 16 + 1 * j.val = j.val; omega

theorem bias_blk_apply (c : Dev nD) (t : Fin cfg0.N) (j : Fin 16) :
    iblk m c 3 t (ix2 (0 : Fin 1) j) = m ((c : Thread nD τ).loc main_arg2) (ix1 j) := by
  obtain ⟨-, -, -, -, -, -, e0, e1, -⟩ := idx_facts t
  show V m c main_v1 (((cfg0.win 3).blk t).view.emb (ix2 (0 : Fin 1) j)) = _
  rw [← bias_apply m c j]
  refine congrArg _ (funext fun a => Fin.ext ?_)
  match a with
  | ⟨0, _⟩ => show win0_3.index t (0 : Fin 2) * 1 + 1 * 0 = 0; omega
  | ⟨1, _⟩ => show win0_3.index t (1 : Fin 2) * 16 + 1 * j.val = j.val; omega

/-- The two row halves of the transposed weight the body loads, at an entry. -/
theorem ld_wlo (wt : Vec Ideal S1024x16 .f32) (k : Fin 512) (j : Fin 16) : View.ld wt rWlo (ix2 k j) = wt (ix2 (lo k) j) := by
  refine congrArg wt (funext fun a => Fin.ext ?_)
  match a with
  | ⟨0, _⟩ => show 0 + 1 * k.val = k.val; omega
  | ⟨1, _⟩ => show 0 + 1 * j.val = j.val; omega
theorem ld_whi (wt : Vec Ideal S1024x16 .f32) (k : Fin 512) (j : Fin 16) : View.ld wt rWhi (ix2 k j) = wt (ix2 (hi k) j) := by
  refine congrArg wt (funext fun a => Fin.ext ?_)
  match a with
  | ⟨0, _⟩ => show 512 + 1 * k.val = 512 + k.val; omega
  | ⟨1, _⟩ => show 0 + 1 * j.val = j.val; omega

theorem hz : (![0, 0] : Fin 2 → Nat) = fun _ => 0 := funext fun a => by fin_cases a <;> rfl

/-- What the body leaves in the output buffer, at entry (r, j), from the four input blocks. -/
theorem outBlk_apply (x0 x1 : Vec Ideal S2048x512 .f32) (wt : Vec Ideal S1024x16 .f32) (b : Vec Ideal S1x16 .f32) (r : Fin 2048) (j : Fin 16) :
    outBlk x0 x1 wt b (ix2 r j)
      = (b (ix2 (0 : Fin 1) j) + ∑ k : Fin 512, x0 (ix2 r k) * wt (ix2 (lo k) j)) + ∑ k : Fin 512, x1 (ix2 r k) * wt (ix2 (hi k) j) := by
  unfold outBlk
  rw [View.canon_unit_zero hz]
  simp only [View.ld_unit_zero (S := S2048x512) hz, View.ld_unit_zero (S := S1x16) hz]
  rw [pay_apply]
  congr 1
  · congr 1
    exact Finset.sum_congr rfl fun k _ => congrArg (x0 (ix2 r k) * ·) (ld_wlo wt k j)
  · exact Finset.sum_congr rfl fun k _ => congrArg (x1 (ix2 r k) * ·) (ld_whi wt k j)

/-! ## From the blocks to the array -/

/-- The result array as the specification's function of the arguments as launched. -/
def resultArr (c : Dev nD) : S65536x16.Idx → EReal :=
  Cert.Spec.result (m ((c : Thread nD τ).loc main_arg0)) (m ((c : Thread nD τ).loc main_arg1)) (m ((c : Thread nD τ).loc main_arg2))

/-- Point `t` writes back block `t` of the specification's array. -/
theorem flushed_eq (c : Dev nD) (t : Fin cfg0.N) :
    (dats m 0 c).flushed 4 t = ((cfg0.win 4).blk t).view.read (Elt Ideal) (resultArr m c) := by
  show (cfg0.win 4).cut (grid0.coords t) ((dats m 0 c).after 4 t) = _
  rw [after_4]
  obtain ⟨-, -, -, -, -, -, -, -, e0, e1⟩ := idx_facts t
  funext y
  obtain ⟨r, j, rfl⟩ : ∃ (r : Fin 2048) (j : Fin 16), y = ix2 r j := ⟨y 0, y 1, eq_ix2 y⟩
  show outBlk (iblk m c 0 t) (iblk m c 1 t) (iblk m c 2 t) (iblk m c 3 t) (ix2 r j) = resultArr m c (((cfg0.win 4).blk t).view.emb (ix2 r j))
  rw [outBlk_apply]
  simp only [x_lo_apply, x_hi_apply, wt_blk_apply, bias_blk_apply]
  rw [Cert.Spec.dotRow_eq_halves]
  unfold resultArr Cert.Spec.result
  have hrow : (((cfg0.win 4).blk t).view.emb (ix2 r j)) 0 = rowOf t r := Fin.ext (by
    show win0_4.index t (0 : Fin 2) * 2048 + 1 * r.val = t.val * 2048 + r.val; omega)
  have hcol : (((cfg0.win 4).blk t).view.emb (ix2 r j)) 1 = j := Fin.ext (by
    show win0_4.index t (1 : Fin 2) * 16 + 1 * j.val = j.val; omega)
  rw [hrow, hcol]

/-- An index of the array is in point `t`'s block iff each coordinate is in the block's range on its axis. -/
theorem mem_blk (t : Fin cfg0.N) (i : S65536x16.Idx) :
    i ∈ ((cfg0.win 4).blk t).view.set ↔ ∀ a : Fin 2, win0_4.index t a * S2048x16.size a ≤ (i a).val ∧ (i a).val < win0_4.index t a * S2048x16.size a + S2048x16.size a := by
  show i ∈ ((View.whole main_v2).slice (win0_4.rect t)).set ↔ _
  rw [View.set_slice_whole, Rect.mem_set_unit]
  exact Iff.rfl

/-- The 32 blocks tile the rows: row `i` lies in block `i / 2048`. -/
theorem cover (i : S65536x16.Idx) : ∃ t : Fin cfg0.N, (cfg0.win 4).flush t = true ∧ i ∈ ((cfg0.win 4).blk t).view.set := by
  have hi0 : (i 0).val < 65536 := (i 0).isLt
  have hi1 : (i 1).val < 16 := (i 1).isLt
  have hN : cfg0.N = 32 := N_0
  refine ⟨⟨(i 0).val / 2048, by omega⟩, flush0_4 _, ?_⟩
  rw [mem_blk]
  obtain ⟨-, -, -, -, -, -, -, -, e0, e1⟩ := idx_facts ⟨(i 0).val / 2048, by omega⟩
  intro a
  match a with
  | ⟨0, _⟩ => show win0_4.index _ (0 : Fin 2) * 2048 ≤ (i 0).val ∧ (i 0).val < win0_4.index _ (0 : Fin 2) * 2048 + 2048; rw [e0]; show (i 0).val / 2048 * 2048 ≤ (i 0).val ∧ (i 0).val < (i 0).val / 2048 * 2048 + 2048; omega
  | ⟨1, _⟩ => show win0_4.index _ (1 : Fin 2) * 16 ≤ (i 1).val ∧ (i 1).val < win0_4.index _ (1 : Fin 2) * 16 + 16; rw [e1]; omega

/-- After the run the result array is the specification's. -/
theorem final (c : Dev nD) : (dats m 0 c).arrAt 4 cfg0.N = resultArr m c :=
  (dats m 0 c).arrAt_eq_of_cover 4 (resultArr m c) (fun t _ => flushed_eq m c t) cover

/-! ## The run, read -/

/-- Every weakly fair execution of the idealized kernel's @main terminates with the result array at the specification's
    function of the arguments and the arguments as launched. -/
theorem run : θ_run defs (onTc (τ := τ) (main (F := Ideal))) ⟨m, fun _ => 0, ρ⟩ fun r => ∀ c : Dev nD,
      r.2.mem ((c : Thread nD τ).loc main_v2) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).1 4).trans (final m c),
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c)⟩) (run_main m ρ)

end Cert.KernelIdeal.KValue

end
-- ==== Proof.RefValue.lean ====
/-
  The reference's result is the specification: its host operations read at an entry (the transposed weight, the
  [65536, 1024] × [1024, 16] product as a sum over the 1024 contracted positions, the bias broadcast over the rows,
  the sum of the two) give exactly `dotRow`, term for term.
-/
import proofs.«169842_g31404800869166_cont_8to1_b_1658_4_alg».proof.Defs
import proofs.«169842_g31404800869166_cont_8to1_b_1658_4_alg».proof.Proof.Gen.ReferenceIdeal.Read
import proofs.«169842_g31404800869166_cont_8to1_b_1658_4_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx

theorem lidx_eq (i : S65536x16.Idx) (k : Fin 1024) : lidx_main_v1 i k = ix2 (i 0) k :=
  funext fun a => Fin.ext (by match a with | ⟨0, _⟩ => rfl | ⟨1, _⟩ => rfl)
theorem widx_eq (i : S65536x16.Idx) (k : Fin 1024) : idx_main_v0 (ridx_main_v1 i k) = ix2 (i 1) k :=
  funext fun a => Fin.ext (by match a with | ⟨0, _⟩ => rfl | ⟨1, _⟩ => rfl)
theorem bidx_eq (i : S65536x16.Idx) : idx_main_v2 (idx_main_v3 i) = ix1 (i 1) :=
  funext fun a => Fin.ext (by match a with | ⟨0, _⟩ => rfl)

/-- The reference's last stage is the specification's array. -/
theorem ref_eq (x0 : (⟨S65536x1024, .f32⟩ : BufTy).Contents (Elt Ideal)) (x1 : (⟨S16x1024, .f32⟩ : BufTy).Contents (Elt Ideal))
    (x2 : (⟨S16, .f32⟩ : BufTy).Contents (Elt Ideal)) :
    val_main_v4 (F := Ideal) x0 x1 x2 = Cert.Spec.result x0 x1 x2 := by
  funext i
  rw [val_main_v4_apply, val_main_v1_apply, val_main_v3_apply, val_main_v2_apply]
  simp only [val_main_v0_apply, lidx_eq, widx_eq, bidx_eq]
  rfl

end Cert.ReferenceIdeal.RefValue

end
-- ==== Proof.lean ====
/-
  out = input · weightᵀ + bias, for input [65536, 1024], weight [16, 1024], bias [16]: a Pallas kernel against jnp.

  The reference forms the [65536, 1024] × [1024, 16] product on the host and adds the bias broadcast over the rows. The
  kernel runs on a grid of 32 points; at point t it reads rows [2048 t, 2048 (t+1)) of the input through TWO windows of the
  same array (the column halves [0, 512) and [512, 1024)), the whole transposed weight and the bias row, and writes
      bias + x_lo · wtᵀ[0:512] + x_hi · wtᵀ[512:1024]
  into rows [2048 t, 2048 (t+1)) of the result.

  At the ideal instance (floats are extended reals, operations exact) both programs give, at entry (i, j),
  Σ_{k < 1024} x[i, k] · w[j, k] + bias j: the kernel's two partial sums are the two halves of the one sum, and addition of
  extended reals is commutative and associative, so the precondition (finite inputs) is not used (Proof/Spec.lean). That the
  reference's operations read at an entry are this term is Proof/RefValue.lean; that the kernel's blocks are, and tile the
  result, Proof/KernelValue.lean.

  The frames: the reference is host operations only, and its run leaves the arguments as launched. The kernel's two input
  windows share one array, so its launch deals that array's points-to to them in two halves of the full share
  (Proof/LibSharedFrame.lean: the launch; Proof/KernelIdealFrame.lean and, with the namespace substituted,
  Proof/KernelFrame.lean: the body's run at every grid point, and the frame). The ideal pass rewrote nothing, so
  `preserves` has no conjunct.
-/
import proofs.«169842_g31404800869166_cont_8to1_b_1658_4_alg».proof.Defs
import proofs.«169842_g31404800869166_cont_8to1_b_1658_4_alg».proof.Proof.Gen.Kernel
import proofs.«169842_g31404800869166_cont_8to1_b_1658_4_alg».proof.Proof.Gen.KernelIdeal
import proofs.«169842_g31404800869166_cont_8to1_b_1658_4_alg».proof.Proof.Gen.ReferenceIdeal
import proofs.«169842_g31404800869166_cont_8to1_b_1658_4_alg».proof.Proof.Gen.Pre_finite_inputs
import proofs.«169842_g31404800869166_cont_8to1_b_1658_4_alg».proof.Proof.Gen.ReferenceIdeal.Run
import proofs.«169842_g31404800869166_cont_8to1_b_1658_4_alg».proof.Proof.Gen.ReferenceIdeal.Read
import proofs.«169842_g31404800869166_cont_8to1_b_1658_4_alg».proof.Proof.KernelFrame
import proofs.«169842_g31404800869166_cont_8to1_b_1658_4_alg».proof.Proof.KernelIdealFrame
import proofs.«169842_g31404800869166_cont_8to1_b_1658_4_alg».proof.Proof.KernelValue
import proofs.«169842_g31404800869166_cont_8to1_b_1658_4_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ

theorem frame_ki : Cert.frame_KernelIdeal := fun m ρ _ => Cert.KernelIdeal.Frame.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's function of the (agreeing) arguments. -/
theorem algebraic : Cert.algebraic_KernelIdeal_ReferenceIdeal := by
  intro m ρ m' ρ' _ hagree
  refine ⟨fun c => Cert.KernelIdeal.KValue.resultArr m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
